-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S1024x128x128 : Shape := ⟨3, ![1024, 128, 128]⟩
abbrev S1024x128x2x256 : Shape := ⟨4, ![1024, 128, 2, 256]⟩
abbrev S1x128x128 : Shape := ⟨3, ![1, 128, 128]⟩
abbrev S1x128x2x256 : Shape := ⟨4, ![1, 128, 2, 256]⟩
abbrev S1x128x128x1 : Shape := ⟨4, ![1, 128, 128, 1]⟩
abbrev S1x128x128x2 : Shape := ⟨4, ![1, 128, 128, 2]⟩
abbrev S1x128x256 : Shape := ⟨3, ![1, 128, 256]⟩
abbrev S1x128x1x256 : Shape := ⟨4, ![1, 128, 1, 256]⟩
abbrev S1024x256x256 : Shape := ⟨3, ![1024, 256, 256]⟩
abbrev S16x64x256x256 : Shape := ⟨4, ![16, 64, 256, 256]⟩

abbrev nBuf : Space → Nat
  | .hbm => 11
  | .vmem => 10
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S1024x128x128, .f32⟩
  | .hbm, ⟨5, _⟩ => ⟨S1024x128x128, .f32⟩
  | .hbm, ⟨6, _⟩ => ⟨S1024x128x128, .f32⟩
  | .hbm, ⟨7, _⟩ => ⟨S1024x128x128, .f32⟩
  | .hbm, ⟨8, _⟩ => ⟨S1024x128x2x256, .f32⟩
  | .hbm, ⟨9, _⟩ => ⟨S1024x256x256, .f32⟩
  | .hbm, ⟨10, _⟩ => ⟨S16x64x256x256, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x2x256, .f32⟩
  | .local _ .vmem, ⟨9, _⟩ => ⟨S1x128x2x256, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x64x128x128_S1024x128x128 : S16x64x128x128.ShapeCasts S1024x128x128
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  shapeCasts_S1x128x128_S1x128x128x1 : S1x128x128.ShapeCasts S1x128x128x1
  concatenates_S1x128x128x1_S1x128x128x1_S1x128x128x2_d3 : Shape.Concatenates [S1x128x128x1, S1x128x128x1] S1x128x128x2 3
  shapeCasts_S1x128x128x2_S1x128x256 : S1x128x128x2.ShapeCasts S1x128x256
  inb_S1x128x2x256_S1x128x1x256_0_0_0_0 : ∀ a, (![0, 0, 0, 0] : Fin 4 → Nat) a + S1x128x1x256.size a ≤ S1x128x2x256.size a
  h_S1x128x1x256 : 0 < S1x128x1x256.numel
  shapeCasts_S1x128x1x256_S1x128x256 : S1x128x1x256.ShapeCasts S1x128x256
  shapeCasts_S1x128x256_S1x128x1x256 : S1x128x256.ShapeCasts S1x128x1x256
  inb_S1x128x2x256_S1x128x1x256_0_0_1_0 : ∀ a, (![0, 0, 1, 0] : Fin 4 → Nat) a + S1x128x1x256.size a ≤ S1x128x2x256.size a
  shapeCasts_S1024x128x2x256_S1024x256x256 : S1024x128x2x256.ShapeCasts S1024x256x256
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S1024x128x128.size a
  hwx0_0 : ∀ i : grid0.Coords, EltTy.bits .f32 = 32 ∨ (Rect.block (s := S1024x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S1024x128x128.size a
  hwx0_1 : ∀ i : grid0.Coords, EltTy.bits .f32 = 32 ∨ (Rect.block (s := S1024x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S1024x128x128.size a
  hwx0_2 : ∀ i : grid0.Coords, EltTy.bits .f32 = 32 ∨ (Rect.block (s := S1024x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S1024x128x128.size a
  hwx0_3 : ∀ i : grid0.Coords, EltTy.bits .f32 = 32 ∨ (Rect.block (s := S1024x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2x256.size a ≤ S1024x128x2x256.size a
  hwx0_4 : ∀ i : grid0.Coords, EltTy.bits .f32 = 32 ∨ (Rect.block (s := S1024x128x2x256) S1x128x2x256.size (cc0_transform_4 i) (hinb0_4 i)).WholeWords (EltTy.packing .f32)

variable [Facts₀]

abbrev win0_0 : Pipeline.Window sig grid0 :=
  Pipeline.Window.ofSpec (Memref.whole main_v0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128x2x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S_, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S_, .f32⟩
  | .hbm, ⟨18, _⟩ => ⟨S16x64x128x128, .f32⟩
  | .hbm, ⟨19, _⟩ => ⟨S16x64x128x128, .f32⟩
  | .hbm, ⟨20, _⟩ => ⟨S16x64x128x128, .f32⟩
  | .hbm, ⟨21, _⟩ => ⟨S_, .f32⟩
  | .hbm, ⟨22, _⟩ => ⟨S16x64x128x128, .f32⟩
  | .hbm, ⟨23, _⟩ => ⟨S16x64x128x128, .f32⟩
  | .hbm, ⟨24, _⟩ => ⟨S16x64x128x128x1, .f32⟩
  | .hbm, ⟨25, _⟩ => ⟨S16x64x128x128x1, .f32⟩
  | .hbm, ⟨26, _⟩ => ⟨S16x64x128x128x2, .f32⟩
  | .hbm, ⟨27, _⟩ => ⟨S16x64x128x256, .f32⟩
  | .hbm, ⟨28, _⟩ => ⟨S16x64x128x128x1, .f32⟩
  | .hbm, ⟨29, _⟩ => ⟨S16x64x128x128x1, .f32⟩
  | .hbm, ⟨30, _⟩ => ⟨S16x64x128x128x2, .f32⟩
  | .hbm, ⟨31, _⟩ => ⟨S16x64x128x256, .f32⟩
  | .hbm, ⟨32, _⟩ => ⟨S16x64x128x1x256, .f32⟩
  | .hbm, ⟨33, _⟩ => ⟨S16x64x128x1x256, .f32⟩
  | .hbm, ⟨34, _⟩ => ⟨S16x64x128x2x256, .f32⟩
  | .hbm, ⟨35, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.Butterfly.lean ====
/-
  The inverse 2-D Haar step as ONE function of the four sub-band arrays, index by index.

  Four coefficient arrays LL, LH, HL, HH of shape [16, 64, 128, 128] give an image of shape [16, 64, 256, 256]:
  the 2×2 block of the image at rows 2h, 2h+1 and columns 2w, 2w+1 is
      [ ½((LL+LH)+(HL+HH))   ½((LL+LH)−(HL+HH)) ]
      [ ½((LL−LH)+(HL−HH))   ½((LL−LH)−(HL−HH)) ]
  of the four coefficients at (h, w). Entry (R, X) of the image therefore reads the coefficients at (R / 2, X / 2) and
  takes the combination its two parities (R % 2, X % 2) name. Both programs spell one half by the same f32 word, and
  both group the sums in the same way, so no law of the extended reals is needed: only where each entry comes from.

  The same function on a tile [N, 128, 2, 256] of [N, 128, 128] coefficient tiles (the row parity a coordinate of its
  own) is what one grid point of the kernel writes (N = 1) and what the kernel's whole output array holds before the
  two reshapes that follow it (N = 1024).
-/
import Idealize.ShloMosaic.Lib.ValueIdx
import Idealize.ShloMosaic.PureOps.Ideal

noncomputable section

namespace Cert.Haar

open Idealize.ShloMosaic

/-- A sub-band array. -/
abbrev Coef : Shape := ⟨4, ![16, 64, 128, 128]⟩
/-- The reconstructed image. -/
abbrev Image : Shape := ⟨4, ![16, 64, 256, 256]⟩
/-- A sub-band array with batch and channel flattened (N = 1024), or one image's tile of it (N = 1). -/
abbrev CoefTile (N : Nat) : Shape := ⟨3, ![N, 128, 128]⟩
/-- The image with the row parity an axis of its own, batch and channel flattened (N = 1024), or one tile (N = 1). -/
abbrev ImageTile (N : Nat) : Shape := ⟨4, ![N, 128, 2, 256]⟩

/-- One half, as the f32 word both programs write. -/
def half : EReal := Ideal.ofBits .f32 0x3F000000#32

/-- Entry (r, q) of the reconstructed 2×2 block, from the four coefficients under it (any nonzero parity counts as odd). -/
def quad (r q : Nat) (ll lh hl hh : EReal) : EReal :=
  if r = 0 then
    if q = 0 then half * ((ll + lh) + (hl + hh)) else half * ((ll + lh) - (hl + hh))
  else
    if q = 0 then half * ((ll - lh) + (hl - hh)) else half * ((ll - lh) - (hl - hh))

theorem quad_even_even {r q : Nat} (hr : r = 0) (hq : q = 0) (ll lh hl hh : EReal) :
    quad r q ll lh hl hh = half * ((ll + lh) + (hl + hh)) := by rw [quad, if_pos hr, if_pos hq]
theorem quad_even_odd {r q : Nat} (hr : r = 0) (hq : ¬q = 0) (ll lh hl hh : EReal) :
    quad r q ll lh hl hh = half * ((ll + lh) - (hl + hh)) := by rw [quad, if_pos hr, if_neg hq]
theorem quad_odd_even {r q : Nat} (hr : ¬r = 0) (hq : q = 0) (ll lh hl hh : EReal) :
    quad r q ll lh hl hh = half * ((ll - lh) + (hl - hh)) := by rw [quad, if_neg hr, if_pos hq]
theorem quad_odd_odd {r q : Nat} (hr : ¬r = 0) (hq : ¬q = 0) (ll lh hl hh : EReal) :
    quad r q ll lh hl hh = half * ((ll - lh) - (hl - hh)) := by rw [quad, if_neg hr, if_neg hq]

/-- The coefficients under image entry (b, c, R, X): (b, c, R / 2, X / 2). -/
def coefOf (i : Image.Idx) : Coef.Idx := fun a => match a with
  | ⟨0, _⟩ => ⟨(i 0).val, (i 0).isLt⟩
  | ⟨1, _⟩ => ⟨(i 1).val, (i 1).isLt⟩
  | ⟨2, _⟩ => ⟨(i 2).val / 2, by have h : (i 2).val < 256 := (i 2).isLt; show (i 2).val / 2 < 128; omega⟩
  | ⟨3, _⟩ => ⟨(i 3).val / 2, by have h : (i 3).val < 256 := (i 3).isLt; show (i 3).val / 2 < 128; omega⟩

/-- THE SPECIFICATION: the image, entry by entry. -/
def inverseHaar (LL LH HL HH : Coef.Idx → EReal) : Image.Idx → EReal := fun i =>
  quad ((i 2).val % 2) ((i 3).val % 2) (LL (coefOf i)) (LH (coefOf i)) (HL (coefOf i)) (HH (coefOf i))

/-- The coefficients under tile entry (n, h, r, X): (n, h, X / 2). -/
def tileCoefOf {N : Nat} (y : (ImageTile N).Idx) : (CoefTile N).Idx := fun a => match a with
  | ⟨0, _⟩ => ⟨(y 0).val, (y 0).isLt⟩
  | ⟨1, _⟩ => ⟨(y 1).val, (y 1).isLt⟩
  | ⟨2, _⟩ => ⟨(y 3).val / 2, by have h : (y 3).val < 256 := (y 3).isLt; show (y 3).val / 2 < 128; omega⟩

/-- The same reconstruction with the row parity a coordinate: entry (n, h, r, X) of the tile. -/
def tileHaar {N : Nat} (ll lh hl hh : (CoefTile N).Idx → EReal) : (ImageTile N).Idx → EReal := fun y =>
  quad (y 2).val ((y 3).val % 2) (ll (tileCoefOf y)) (lh (tileCoefOf y)) (hl (tileCoefOf y)) (hh (tileCoefOf y))

end Cert.Haar

end
-- ==== Proof.LaneInterleave.lean ====
/-
  Interleaving two [1, 128, 128] tiles along the lanes, read at an index.

  The kernel makes a [1, 128, 256] row of the image from two [1, 128, 128] tiles A and B by giving each a trailing
  unit axis, joining them on that axis to [1, 128, 128, 2] and flattening the last two axes; it then stores the row
  as [1, 128, 1, 256]. Row-major order puts entry (0, h, w, q) of the joined array at lane 2w + q, so lane X of the
  result is A at X / 2 when X is even and B at X / 2 when X is odd. Nothing here depends on what the entries are.
-/
import Idealize.ShloMosaic.Lib.Pipeline.Value

namespace Cert.Haar

open Idealize.ShloMosaic

section
variable {α : Type}

/-- Where lane entry (0, h, 0, X) of a stored row comes from in a tile: (0, h, X / 2). -/
def laneSrc (x : (⟨4, ![1, 128, 1, 256]⟩ : Shape).Idx) : (⟨3, ![1, 128, 128]⟩ : Shape).Idx := fun a => match a with
  | ⟨0, _⟩ => ⟨(x 0).val, (x 0).isLt⟩
  | ⟨1, _⟩ => ⟨(x 1).val, (x 1).isLt⟩
  | ⟨2, _⟩ => ⟨(x 3).val / 2, by have h : (x 3).val < 256 := (x 3).isLt; show (x 3).val / 2 < 128; omega⟩

/-- The stored row at (0, h, 0, X): the even lanes are A's, the odd lanes B's, each at X / 2. -/
theorem interleave_apply (A B : (⟨3, ![1, 128, 128]⟩ : Shape).Idx → α)
    (hA : (⟨3, ![1, 128, 128]⟩ : Shape).ShapeCasts ⟨4, ![1, 128, 128, 1]⟩)
    (hB : (⟨3, ![1, 128, 128]⟩ : Shape).ShapeCasts ⟨4, ![1, 128, 128, 1]⟩)
    (hcat : Shape.Concatenates [(⟨4, ![1, 128, 128, 1]⟩ : Shape), ⟨4, ![1, 128, 128, 1]⟩] ⟨4, ![1, 128, 128, 2]⟩ 3)
    (hflat : (⟨4, ![1, 128, 128, 2]⟩ : Shape).ShapeCasts ⟨3, ![1, 128, 256]⟩)
    (hrow : (⟨3, ![1, 128, 256]⟩ : Shape).ShapeCasts ⟨4, ![1, 128, 1, 256]⟩)
    (x : (⟨4, ![1, 128, 1, 256]⟩ : Shape).Idx) :
    shapeCast ⟨4, ![1, 128, 1, 256]⟩
      (shapeCast ⟨3, ![1, 128, 256]⟩
        (concatenate ⟨4, ![1, 128, 128, 2]⟩ 3
          [⟨⟨4, ![1, 128, 128, 1]⟩, shapeCast ⟨4, ![1, 128, 128, 1]⟩ A hA⟩,
           ⟨⟨4, ![1, 128, 128, 1]⟩, shapeCast ⟨4, ![1, 128, 128, 1]⟩ B hB⟩] hcat) hflat) hrow x
      = if (x 3).val % 2 = 0 then A (laneSrc x) else B (laneSrc x) := by
  have h0 : (x 0).val < 1 := (x 0).isLt
  have h1 : (x 1).val < 128 := (x 1).isLt
  have h2 : (x 2).val < 1 := (x 2).isLt
  have h3 : (x 3).val < 256 := (x 3).isLt
  -- the stored row [1,128,1,256] at (0, h, 0, X) reads the row [1,128,256] at (0, h, X)
  refine (shapeCast_apply _ hrow x
    (fun a => match a with | ⟨0, _⟩ => ⟨(x 0).val, h0⟩ | ⟨1, _⟩ => ⟨(x 1).val, h1⟩ | ⟨2, _⟩ => ⟨(x 3).val, h3⟩)
    (by rw [Shape.rowMajor_val_three, Shape.rowMajor_val_four]
        show ((x 0).val * 128 + (x 1).val) * 256 + (x 3).val = (((x 0).val * 128 + (x 1).val) * 1 + (x 2).val) * 256 + (x 3).val
        omega)).trans ?_
  -- which reads the joined array [1,128,128,2] at (0, h, X / 2, X % 2)
  refine (shapeCast_apply _ hflat _
    (fun a => match a with
      | ⟨0, _⟩ => ⟨(x 0).val, h0⟩ | ⟨1, _⟩ => ⟨(x 1).val, h1⟩
      | ⟨2, _⟩ => ⟨(x 3).val / 2, by show (x 3).val / 2 < 128; omega⟩
      | ⟨3, _⟩ => ⟨(x 3).val % 2, Nat.mod_lt _ (by decide)⟩)
    (by rw [Shape.rowMajor_val_four, Shape.rowMajor_val_three]
        show (((x 0).val * 128 + (x 1).val) * 128 + (x 3).val / 2) * 2 + (x 3).val % 2 = ((x 0).val * 128 + (x 1).val) * 256 + (x 3).val
        omega)).trans ?_
  by_cases hq : (x 3).val % 2 = 0
  · rw [if_pos hq]
    -- an even lane falls in the first operand
    refine (concatenate_pair_apply_left 3 _ _ hcat _ rfl
      (fun a => match a with
        | ⟨0, _⟩ => ⟨(x 0).val, h0⟩ | ⟨1, _⟩ => ⟨(x 1).val, h1⟩
        | ⟨2, _⟩ => ⟨(x 3).val / 2, by show (x 3).val / 2 < 128; omega⟩
        | ⟨3, _⟩ => ⟨0, Nat.one_pos⟩)
      (fun b => match b with
        | ⟨0, _⟩ => rfl | ⟨1, _⟩ => rfl | ⟨2, _⟩ => rfl
        | ⟨3, _⟩ => by show 0 = (x 3).val % 2; omega)).trans ?_
    exact shapeCast_apply A hA _ (laneSrc x)
      (by rw [Shape.rowMajor_val_three, Shape.rowMajor_val_four]
          show ((x 0).val * 128 + (x 1).val) * 128 + (x 3).val / 2 = (((x 0).val * 128 + (x 1).val) * 128 + (x 3).val / 2) * 1 + 0
          omega)
  · rw [if_neg hq]
    -- an odd lane falls in the second operand, at its only position on the joined axis
    refine (concatenate_pair_apply_right 3 _ _ hcat _ rfl rfl
      (fun a => match a with
        | ⟨0, _⟩ => ⟨(x 0).val, h0⟩ | ⟨1, _⟩ => ⟨(x 1).val, h1⟩
        | ⟨2, _⟩ => ⟨(x 3).val / 2, by show (x 3).val / 2 < 128; omega⟩
        | ⟨3, _⟩ => ⟨0, Nat.one_pos⟩)
      (fun b hb => match b with
        | ⟨0, _⟩ => rfl | ⟨1, _⟩ => rfl | ⟨2, _⟩ => rfl
        | ⟨3, _⟩ => absurd rfl hb)
      (by show 0 + 1 = (x 3).val % 2; omega)).trans ?_
    exact shapeCast_apply B hB _ (laneSrc x)
      (by rw [Shape.rowMajor_val_three, Shape.rowMajor_val_four]
          show ((x 0).val * 128 + (x 1).val) * 128 + (x 3).val / 2 = (((x 0).val * 128 + (x 1).val) * 128 + (x 3).val / 2) * 1 + 0
          omega)

end

end Cert.Haar
-- ==== Proof.TileValue.lean ====
/-
  What one grid point of the kernel leaves in its output block.

  At a grid point the body loads four [1, 128, 128] tiles (one of each sub-band), forms the four combinations
  a, b, c, d of them entry by entry, interleaves a with b and c with d along the lanes, and stores the first row
  array as image row 0 and the second as image row 1 of a [1, 128, 2, 256] block. The two stores tile the block, so
  the block ends holding, at (0, h, r, X), the combination named by (r, X % 2) of the four tiles at (0, h, X / 2):
  the tile form of the inverse Haar step.
-/
import proofs.«415108_j11802570129597_4_alg».proof.Proof.Gen.KernelIdeal.Frame
import proofs.«415108_j11802570129597_4_alg».proof.Proof.Butterfly
import proofs.«415108_j11802570129597_4_alg».proof.Proof.LaneInterleave

noncomputable section

namespace Cert.KernelIdeal.TileValue

open Idealize.ShloMosaic Cert.KernelIdeal Cert.KernelIdeal.Gen Cert.Haar

theorem zero3 : (![0, 0, 0] : Fin 3 → Nat) = fun _ => 0 := funext fun a => by fin_cases a <;> rfl

/-- The body first casts each loaded tile to its own shape: nothing moves. -/
theorem pay2_eq (v : Vec Ideal S1x128x128 .f32) : k0_pay2 (F := Ideal) v = v := shapeCast_self v _
theorem pay3_eq (v : Vec Ideal S1x128x128 .f32) : k0_pay3 (F := Ideal) v = v := shapeCast_self v _
theorem pay4_eq (v : Vec Ideal S1x128x128 .f32) : k0_pay4 (F := Ideal) v = v := shapeCast_self v _
theorem pay5_eq (v : Vec Ideal S1x128x128 .f32) : k0_pay5 (F := Ideal) v = v := shapeCast_self v _

/-- The even image row of a tile, as stored: a at even lanes, b at odd lanes. -/
theorem evenRow_apply (x0 x1 x2 x3 : Vec Ideal S1x128x128 .f32) (x : S1x128x1x256.Idx) :
    k0_pay7 (F := Ideal) x0 x1 x2 x3 x
      = quad 0 ((x 3).val % 2) (x0 (laneSrc x)) (x1 (laneSrc x)) (x2 (laneSrc x)) (x3 (laneSrc x)) := by
  unfold k0_pay7
  rw [pay2_eq, pay3_eq, pay4_eq, pay5_eq]
  refine (interleave_apply _ _ _ _ _ _ _ x).trans ?_
  by_cases hq : (x 3).val % 2 = 0
  · rw [if_pos hq, quad_even_even rfl hq]; rfl
  · rw [if_neg hq, quad_even_odd rfl hq]; rfl

/-- The odd image row of a tile, as stored: c at even lanes, d at odd lanes. -/
theorem oddRow_apply (x0 x1 x2 x3 : Vec Ideal S1x128x128 .f32) (x : S1x128x1x256.Idx) :
    k0_pay1 (F := Ideal) (k0_pay6 (F := Ideal) x0 x1 x2 x3) x
      = quad 1 ((x 3).val % 2) (x0 (laneSrc x)) (x1 (laneSrc x)) (x2 (laneSrc x)) (x3 (laneSrc x)) := by
  unfold k0_pay1 k0_pay6
  rw [pay2_eq, pay3_eq, pay4_eq, pay5_eq]
  refine (interleave_apply _ _ _ _ _ _ _ x).trans ?_
  by_cases hq : (x 3).val % 2 = 0
  · rw [if_pos hq, quad_odd_even (by decide) hq]; rfl
  · rw [if_neg hq, quad_odd_odd (by decide) hq]; rfl

/-- WHAT ONE GRID POINT LEAVES IN THE OUTPUT BLOCK: the two stored rows together are the tile form of the inverse
    Haar step of the four input tiles. -/
theorem tile_eq (x0 x1 x2 x3 : Vec Ideal S1x128x128 .f32) :
    out0_4 (F := Ideal) x0 x1 x2 x3 = tileHaar (N := 1) x0 x1 x2 x3 := by
  funext y
  unfold out0_4
  simp only [View.ld_unit_zero (S := S1x128x128) zero3]
  refine View.canon_apply_of_pieces (Val := Elt Ideal) (tileHaar (N := 1) x0 x1 x2 x3 : S1x128x2x256.Idx → Elt Ideal .f32) _ ?_ y (cover0_4 _ _ y)
  intro pc hpc x
  rcases List.mem_cons.mp hpc with rfl | hpc
  · -- the later store: image row 1 of the tile
    have hx2 : (x 2).val < 1 := (x 2).isLt
    show k0_pay1 (k0_pay6 x0 x1 x2 x3) x = tileHaar (N := 1) x0 x1 x2 x3 (r0_2.idx x)
    refine (oddRow_apply x0 x1 x2 x3 x).trans ?_
    unfold tileHaar
    have e2 : ((r0_2.idx x) 2).val = 1 := by show 1 + 1 * (x 2).val = 1; omega
    have e3 : ((r0_2.idx x) 3).val = (x 3).val := by show 0 + 1 * (x 3).val = (x 3).val; omega
    have es : tileCoefOf (N := 1) (r0_2.idx x) = laneSrc x := funext fun a => match a with
      | ⟨0, _⟩ => Fin.ext (by show 0 + 1 * (x 0).val = (x 0).val; omega)
      | ⟨1, _⟩ => Fin.ext (by show 0 + 1 * (x 1).val = (x 1).val; omega)
      | ⟨2, _⟩ => Fin.ext (by show (0 + 1 * (x 3).val) / 2 = (x 3).val / 2; omega)
    rw [e2, e3, es]
  rcases List.mem_cons.mp hpc with rfl | hpc
  · -- the earlier store: image row 0 of the tile
    have hx2 : (x 2).val < 1 := (x 2).isLt
    show k0_pay7 x0 x1 x2 x3 x = tileHaar (N := 1) x0 x1 x2 x3 (r0_1.idx x)
    refine (evenRow_apply x0 x1 x2 x3 x).trans ?_
    unfold tileHaar
    have e2 : ((r0_1.idx x) 2).val = 0 := by show 0 + 1 * (x 2).val = 0; omega
    have e3 : ((r0_1.idx x) 3).val = (x 3).val := by show 0 + 1 * (x 3).val = (x 3).val; omega
    have es : tileCoefOf (N := 1) (r0_1.idx x) = laneSrc x := funext fun a => match a with
      | ⟨0, _⟩ => Fin.ext (by show 0 + 1 * (x 0).val = (x 0).val; omega)
      | ⟨1, _⟩ => Fin.ext (by show 0 + 1 * (x 1).val = (x 1).val; omega)
      | ⟨2, _⟩ => Fin.ext (by show (0 + 1 * (x 3).val) / 2 = (x 3).val / 2; omega)
    rw [e2, e3, es]
  nomatch hpc

end Cert.KernelIdeal.TileValue

end
-- ==== Proof.ArrayValue.lean ====
/-
  The kernel's result, read off its frame run.

  Before the region the four arguments are reshaped [16, 64, 128, 128] to [1024, 128, 128] (batch and channel flattened).
  Grid point t reads image t of each (a [1, 128, 128] tile) and writes block t, a [1, 128, 2, 256] tile, of the
  [1024, 128, 2, 256] output array: by the tile lemma, the tile form of the inverse Haar step of the four tiles, which
  is block t of the tile form of the inverse Haar step of the four flattened arrays, because every window's block
  index at point t is (t, 0, …, 0). The 1024 blocks tile the output array, so after the region it holds that function
  everywhere. The two reshapes after the region merge (h, r) into the image row R = 2h + r and split the leading axis
  back into (b, c); read at image entry (b, c, R, X) through the row-major positions, the result is the combination
  named by (R % 2, X % 2) of the arguments at (b, c, R / 2, X / 2): the specification.
-/
import proofs.«415108_j11802570129597_4_alg».proof.Proof.TileValue
import Idealize.ShloMosaic.Lib.StableHlo.Run

noncomputable section

namespace Cert.KernelIdeal.ArrayValue

open Idealize.ShloMosaic Idealize.ShloMosaic.TcCoe Idealize.SL.Sem
open Cert.KernelIdeal Cert.KernelIdeal.Gen Cert.KernelIdeal.TileValue Cert.Haar
open Idealize.ShloMosaic.Pipeline (Dat)

variable (m : (ℓ : Loc nD τ sig) → Buf (Elt Ideal) ℓ) (ρ : Dev nD → PrngReg)

/-! ## The arrays the region finds: each argument with batch and channel flattened -/

theorem V_main_v0 (c : Dev nD) : (V m c main_v0 : S1024x128x128.Idx → EReal)
    = shapeCast S1024x128x128 (m ((c : Thread nD τ).loc main_arg0)) shapeCasts_S16x64x128x128_S1024x128x128 := by
  show StableHlo.after hostOps0 (fun b => m (c, b)) (Proc.devRef .tc main_v0) = _
  after_results; rfl
theorem V_main_v1 (c : Dev nD) : (V m c main_v1 : S1024x128x128.Idx → EReal)
    = shapeCast S1024x128x128 (m ((c : Thread nD τ).loc main_arg1)) shapeCasts_S16x64x128x128_S1024x128x128 := by
  show StableHlo.after hostOps0 (fun b => m (c, b)) (Proc.devRef .tc main_v1) = _
  after_results; rfl
theorem V_main_v2 (c : Dev nD) : (V m c main_v2 : S1024x128x128.Idx → EReal)
    = shapeCast S1024x128x128 (m ((c : Thread nD τ).loc main_arg2)) shapeCasts_S16x64x128x128_S1024x128x128 := by
  show StableHlo.after hostOps0 (fun b => m (c, b)) (Proc.devRef .tc main_v2) = _
  after_results; rfl
theorem V_main_v3 (c : Dev nD) : (V m c main_v3 : S1024x128x128.Idx → EReal)
    = shapeCast S1024x128x128 (m ((c : Thread nD τ).loc main_arg3)) shapeCasts_S16x64x128x128_S1024x128x128 := by
  show StableHlo.after hostOps0 (fun b => m (c, b)) (Proc.devRef .tc main_v3) = _
  after_results; rfl

/-! ## The blocks: point t works on image t of the flattened batch -/

/-- The printed index maps, decided over the grid: every window's block index at point t is (t, 0, …, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 4) = t.val ∧ win0_4.index t (1 : Fin 4) = 0 ∧ win0_4.index t (2 : Fin 4) = 0
    ∧ win0_4.index t (3 : Fin 4) = 0 :=
  (by decide +kernel : ∀ t : Fin grid0.N, _)

/-- WHAT POINT t WRITES BACK is block t of the tile form of the inverse Haar step of the four flattened arrays. -/
theorem flushed_eq (c : Dev nD) (t : Fin cfg0.N) :
    (dats m 0 c).flushed 4 t = ((cfg0.win 4).blk t).view.read (Elt Ideal)
      (tileHaar (N := 1024) (V m c main_v0) (V m c main_v1) (V m c main_v2) (V m c main_v3)) := by
  show (cfg0.win 4).cut (grid0.coords t) ((dats m 0 c).after 4 t) = _
  rw [after0_4, tile_eq]
  obtain ⟨a00, a01, a02, a10, a11, a12, a20, a21, a22, a30, a31, a32, a40, a41, a42, a43⟩ := idx_facts t
  funext y
  show tileHaar (N := 1) (iblk m c 0 t) (iblk m c 1 t) (iblk m c 2 t) (iblk m c 3 t) y
    = tileHaar (N := 1024) (V m c main_v0) (V m c main_v1) (V m c main_v2) (V m c main_v3) (((cfg0.win 4).blk t).view.emb y)
  unfold tileHaar
  have e2 : ((((cfg0.win 4).blk t).view.emb y) 2).val = (y 2).val := by
    show win0_4.index t (2 : Fin 4) * 2 + 1 * (y 2).val = (y 2).val; omega
  have e3 : ((((cfg0.win 4).blk t).view.emb y) 3).val = (y 3).val := by
    show win0_4.index t (3 : Fin 4) * 256 + 1 * (y 3).val = (y 3).val; omega
  have h0 : iblk m c 0 t (tileCoefOf (N := 1) y) = V m c main_v0 (tileCoefOf (N := 1024) (((cfg0.win 4).blk t).view.emb y)) := by
    show V m c main_v0 (((cfg0.win 0).blk t).view.emb (tileCoefOf (N := 1) y)) = _
    refine congrArg _ (funext fun a => Fin.ext ?_)
    match a with
    | ⟨0, _⟩ => show win0_0.index t (0 : Fin 3) * 1 + 1 * (y 0).val = win0_4.index t (0 : Fin 4) * 1 + 1 * (y 0).val; omega
    | ⟨1, _⟩ => show win0_0.index t (1 : Fin 3) * 128 + 1 * (y 1).val = win0_4.index t (1 : Fin 4) * 128 + 1 * (y 1).val; omega
    | ⟨2, _⟩ => show win0_0.index t (2 : Fin 3) * 128 + 1 * ((y 3).val / 2) = (win0_4.index t (3 : Fin 4) * 256 + 1 * (y 3).val) / 2; omega
  have h1 : iblk m c 1 t (tileCoefOf (N := 1) y) = V m c main_v1 (tileCoefOf (N := 1024) (((cfg0.win 4).blk t).view.emb y)) := by
    show V m c main_v1 (((cfg0.win 1).blk t).view.emb (tileCoefOf (N := 1) y)) = _
    refine congrArg _ (funext fun a => Fin.ext ?_)
    match a with
    | ⟨0, _⟩ => show win0_1.index t (0 : Fin 3) * 1 + 1 * (y 0).val = win0_4.index t (0 : Fin 4) * 1 + 1 * (y 0).val; omega
    | ⟨1, _⟩ => show win0_1.index t (1 : Fin 3) * 128 + 1 * (y 1).val = win0_4.index t (1 : Fin 4) * 128 + 1 * (y 1).val; omega
    | ⟨2, _⟩ => show win0_1.index t (2 : Fin 3) * 128 + 1 * ((y 3).val / 2) = (win0_4.index t (3 : Fin 4) * 256 + 1 * (y 3).val) / 2; omega
  have h2 : iblk m c 2 t (tileCoefOf (N := 1) y) = V m c main_v2 (tileCoefOf (N := 1024) (((cfg0.win 4).blk t).view.emb y)) := by
    show V m c main_v2 (((cfg0.win 2).blk t).view.emb (tileCoefOf (N := 1) y)) = _
    refine congrArg _ (funext fun a => Fin.ext ?_)
    match a with
    | ⟨0, _⟩ => show win0_2.index t (0 : Fin 3) * 1 + 1 * (y 0).val = win0_4.index t (0 : Fin 4) * 1 + 1 * (y 0).val; omega
    | ⟨1, _⟩ => show win0_2.index t (1 : Fin 3) * 128 + 1 * (y 1).val = win0_4.index t (1 : Fin 4) * 128 + 1 * (y 1).val; omega
    | ⟨2, _⟩ => show win0_2.index t (2 : Fin 3) * 128 + 1 * ((y 3).val / 2) = (win0_4.index t (3 : Fin 4) * 256 + 1 * (y 3).val) / 2; omega
  have h3 : iblk m c 3 t (tileCoefOf (N := 1) y) = V m c main_v3 (tileCoefOf (N := 1024) (((cfg0.win 4).blk t).view.emb y)) := by
    show V m c main_v3 (((cfg0.win 3).blk t).view.emb (tileCoefOf (N := 1) y)) = _
    refine congrArg _ (funext fun a => Fin.ext ?_)
    match a with
    | ⟨0, _⟩ => show win0_3.index t (0 : Fin 3) * 1 + 1 * (y 0).val = win0_4.index t (0 : Fin 4) * 1 + 1 * (y 0).val; omega
    | ⟨1, _⟩ => show win0_3.index t (1 : Fin 3) * 128 + 1 * (y 1).val = win0_4.index t (1 : Fin 4) * 128 + 1 * (y 1).val; omega
    | ⟨2, _⟩ => show win0_3.index t (2 : Fin 3) * 128 + 1 * ((y 3).val / 2) = (win0_4.index t (3 : Fin 4) * 256 + 1 * (y 3).val) / 2; omega
  rw [e2, e3, h0, h1, h2, h3]

/-- An index of the output array is in point t's block iff each coordinate is in the block's range on its axis. -/
theorem mem_blk (t : Fin cfg0.N) (i : S1024x128x2x256.Idx) :
    i ∈ ((cfg0.win 4).blk t).view.set ↔ ∀ a : Fin 4, win0_4.index t a * S1x128x2x256.size a ≤ (i a).val ∧ (i a).val < win0_4.index t a * S1x128x2x256.size a + S1x128x2x256.size a := by
  show i ∈ ((View.whole main_v4).slice (win0_4.rect t)).set ↔ _
  rw [View.set_slice_whole, Rect.mem_set_unit]
  exact Iff.rfl

/-- THE COVER: entry (n, h, r, X) of the output array is in the block of point n, which writes it back. -/
theorem cover (i : S1024x128x2x256.Idx) :
    ∃ t : Fin cfg0.N, (cfg0.win 4).flush t = true ∧ i ∈ ((cfg0.win 4).blk t).view.set := by
  have hi0 : (i 0).val < 1024 := (i 0).isLt
  have hi1 : (i 1).val < 128 := (i 1).isLt
  have hi2 : (i 2).val < 2 := (i 2).isLt
  have hi3 : (i 3).val < 256 := (i 3).isLt
  have hN : cfg0.N = 1024 := N_0
  obtain ⟨t, ht⟩ : ∃ t : Fin cfg0.N, t.val = (i 0).val := ⟨⟨(i 0).val, by rw [hN]; exact hi0⟩, rfl⟩
  obtain ⟨-, -, -, -, -, -, -, -, -, -, -, -, a40, a41, a42, a43⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 2 ≤ (i 2).val ∧ (i 2).val < win0_4.index t (2 : Fin 4) * 2 + 2; omega
  | ⟨3, _⟩ => show win0_4.index t (3 : Fin 4) * 256 ≤ (i 3).val ∧ (i 3).val < win0_4.index t (3 : Fin 4) * 256 + 256; omega

/-- THE OUTPUT ARRAY after the region: the tile form of the inverse Haar step of the four flattened arrays. -/
theorem final (c : Dev nD) :
    (dats m 0 c).arrAt 4 cfg0.N = tileHaar (N := 1024) (V m c main_v0) (V m c main_v1) (V m c main_v2) (V m c main_v3) :=
  (dats m 0 c).arrAt_eq_of_cover 4 _ (fun t _ => flushed_eq m c t) cover

/-! ## The two reshapes after the region -/

/-- THE RESULT: the output array with its two row axes merged and its leading axis split back into batch and channel
    is the inverse Haar step of the four arguments. -/
theorem result_eq (c : Dev nD) :
    Pipeline.afterTail₀ cfgs (dats m) 0 (V0 m) [hostOps1] c main_v6
      = inverseHaar (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  have hW : (Pipeline.withArrays (cfgs 0).spec c (V0 m c) (fun w => (dats m 0 c).arrAt w (cfgs 0).N) (Proc.devRef .tc main_v4)
        : S1024x128x2x256.Idx → EReal)
      = tileHaar (N := 1024) (V m c main_v0) (V m c main_v1) (V m c main_v2) (V m c main_v3) :=
    (Pipeline.withArrays_arr spec0 launch0.win.arr_inj c _ _ 4).trans (final m c)
  funext i
  show shapeCast S16x64x256x256 (shapeCast S1024x256x256
      (Pipeline.withArrays (cfgs 0).spec c (V0 m c) (fun w => (dats m 0 c).arrAt w (cfgs 0).N) (Proc.devRef .tc main_v4))
      shapeCasts_S1024x128x2x256_S1024x256x256) shapeCasts_S1024x256x256_S16x64x256x256 i = _
  rw [hW]
  have h0 : (i 0).val < 16 := (i 0).isLt
  have h1 : (i 1).val < 64 := (i 1).isLt
  have h2 : (i 2).val < 256 := (i 2).isLt
  have h3 : (i 3).val < 256 := (i 3).isLt
  -- image entry (b, c, R, X) is entry (64 b + c, R, X) of the array with batch and channel flattened
  refine (shapeCast_apply _ shapeCasts_S1024x256x256_S16x64x256x256 i
    (fun a => match a with
      | ⟨0, _⟩ => ⟨(i 0).val * 64 + (i 1).val, by show (i 0).val * 64 + (i 1).val < 1024; omega⟩
      | ⟨1, _⟩ => ⟨(i 2).val, h2⟩
      | ⟨2, _⟩ => ⟨(i 3).val, h3⟩)
    (by rw [Shape.rowMajor_val_three, Shape.rowMajor_val_four]
        show (((i 0).val * 64 + (i 1).val) * 256 + (i 2).val) * 256 + (i 3).val = (((i 0).val * 64 + (i 1).val) * 256 + (i 2).val) * 256 + (i 3).val
        omega)).trans ?_
  -- which is entry (64 b + c, R / 2, R % 2, X) of the array with the row parity an axis of its own
  refine (shapeCast_apply _ shapeCasts_S1024x128x2x256_S1024x256x256 _
    (fun a => match a with
      | ⟨0, _⟩ => ⟨(i 0).val * 64 + (i 1).val, by show (i 0).val * 64 + (i 1).val < 1024; omega⟩
      | ⟨1, _⟩ => ⟨(i 2).val / 2, by show (i 2).val / 2 < 128; omega⟩
      | ⟨2, _⟩ => ⟨(i 2).val % 2, Nat.mod_lt _ (by decide)⟩
      | ⟨3, _⟩ => ⟨(i 3).val, h3⟩)
    (by rw [Shape.rowMajor_val_four, Shape.rowMajor_val_three]
        show ((((i 0).val * 64 + (i 1).val) * 128 + (i 2).val / 2) * 2 + (i 2).val % 2) * 256 + (i 3).val
          = (((i 0).val * 64 + (i 1).val) * 256 + (i 2).val) * 256 + (i 3).val
        omega)).trans ?_
  unfold tileHaar inverseHaar
  rw [V_main_v0, V_main_v1, V_main_v2, V_main_v3]
  -- and a flattened coefficient array at (64 b + c, h, w) is the argument at (b, c, h, w)
  have hc : ∀ (X : S16x64x128x128.Idx → EReal) (h : S16x64x128x128.ShapeCasts S1024x128x128) (z : S1024x128x128.Idx),
      (z 0).val = (i 0).val * 64 + (i 1).val → (z 1).val = (i 2).val / 2 → (z 2).val = (i 3).val / 2 →
      shapeCast S1024x128x128 X h z = X (coefOf i) := fun X h z z0 z1 z2 =>
    shapeCast_apply X h z (coefOf i)
      (by rw [Shape.rowMajor_val_four, Shape.rowMajor_val_three]
          show (((i 0).val * 64 + (i 1).val) * 128 + (i 2).val / 2) * 128 + (i 3).val / 2 = ((z 0).val * 128 + (z 1).val) * 128 + (z 2).val
          rw [z0, z1, z2])
  rw [hc _ _ _ rfl rfl rfl, hc _ _ _ rfl rfl rfl, hc _ _ _ rfl rfl rfl, hc _ _ _ rfl rfl rfl]

/-! ## The run, read -/

/-- Every weakly fair execution of the idealized kernel's program terminates with its result at the inverse Haar step
    of the four arguments, the arguments unchanged. -/
theorem run : θ_run defs (onTc (τ := τ) (main (F := Ideal))) ⟨m, fun _ => 0, ρ⟩ fun r => ∀ c : Dev nD,
      r.2.mem ((c : Thread nD τ).loc main_v6)
          = inverseHaar (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.ArrayValue

end
-- ==== Proof.RefRun.lean ====
/-
  The reference's run, in four stretches of eight operations.

  The reference is a straight line of 32 host operations. Its first twenty compute the four combinations
  a = ½((LL+LH)+(HL+HH)), b = ½((LL+LH)−(HL+HH)), c = ½((LL−LH)+(HL−HH)), d = ½((LL−LH)−(HL−HH)) as whole arrays;
  the last twelve interleave a with b and c with d along the lanes and then the two row arrays along the rows.
  What a buffer holds after a stretch is a function of what a few buffers held before it, so the run is read one
  stretch at a time over an ARBITRARY valuation of the buffers before the stretch: each stretch's lemma names what
  the later stretches still need (the stages of the program, each a function of the four arguments), and the four
  lemmas compose along the list. The result is stated as the last stage of the arguments, so that every term along
  the way is one stage over the stages before it.
-/
import proofs.«415108_j11802570129597_4_alg».proof.Proof.RefRead
import Idealize.ShloMosaic.Lib.StableHlo.Run

noncomputable section

namespace Cert.ReferenceIdeal.StageRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The program as a list, whole and in four stretches -/

/-- Operations 1 to 8: the sums and differences of the sub-bands, and a. -/
abbrev ops1 : List (HloOp τ sig (Elt F)) :=
  [ binary main_arg0 main_arg1 main_v0 (addf : (⟨S16x64x128x128, .f32⟩ : BufTy).Contents (Elt F) → (⟨S16x64x128x128, .f32⟩ : BufTy).Contents (Elt F) → (⟨S16x64x128x128, .f32⟩ : BufTy).Contents (Elt F)),
    binary main_arg0 main_arg1 main_v1 (subf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v2 (addf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v3 (subf : (⟨S16x64x128x128, .f32⟩ : BufTy).Contents (Elt F) → (⟨S16x64x128x128, .f32⟩ : BufTy).Contents (Elt F) → (⟨S16x64x128x128, .f32⟩ : BufTy).Contents (Elt F)),
    binary main_v0 main_v2 main_v4 (addf : (⟨S16x64x128x128, .f32⟩ : BufTy).Contents (Elt F) → (⟨S16x64x128x128, .f32⟩ : BufTy).Contents (Elt F) → (⟨S16x64x128x128, .f32⟩ : BufTy).Contents (Elt F)),
    nullary main_cst (constant S_ .f32 0x3F000000#32),
    unary main_cst main_v5 (broadcastInDim S16x64x128x128 ![] bcast_S_S16x64x128x128 : (⟨S_, .f32⟩ : BufTy).Contents (Elt F) → (⟨S16x64x128x128, .f32⟩ : BufTy).Contents (Elt F)),
    binary main_v5 main_v4 main_v6 (mulf : (⟨S16x64x128x128, .f32⟩ : BufTy).Contents (Elt F) → (⟨S16x64x128x128, .f32⟩ : BufTy).Contents (Elt F) → (⟨S16x64x128x128, .f32⟩ : BufTy).Contents (Elt F)) ]
/-- Operations 9 to 16: b and c. -/
abbrev ops2 : List (HloOp τ sig (Elt F)) :=
  [ binary main_v0 main_v2 main_v7 (subf : (⟨S16x64x128x128, .f32⟩ : BufTy).Contents (Elt F) → (⟨S16x64x128x128, .f32⟩ : BufTy).Contents (Elt F) → (⟨S16x64x128x128, .f32⟩ : BufTy).Contents (Elt F)),
    nullary main_cst_0 (constant S_ .f32 0x3F000000#32),
    unary main_cst_0 main_v8 (broadcastInDim S16x64x128x128 ![] bcast_S_S16x64x128x128 : (⟨S_, .f32⟩ : BufTy).Contents (Elt F) → (⟨S16x64x128x128, .f32⟩ : BufTy).Contents (Elt F)),
    binary main_v8 main_v7 main_v9 (mulf : (⟨S16x64x128x128, .f32⟩ : BufTy).Contents (Elt F) → (⟨S16x64x128x128, .f32⟩ : BufTy).Contents (Elt F) → (⟨S16x64x128x128, .f32⟩ : BufTy).Contents (Elt F)),
    binary main_v1 main_v3 main_v10 (addf : (⟨S16x64x128x128, .f32⟩ : BufTy).Contents (Elt F) → (⟨S16x64x128x128, .f32⟩ : BufTy).Contents (Elt F) → (⟨S16x64x128x128, .f32⟩ : BufTy).Contents (Elt F)),
    nullary main_cst_1 (constant S_ .f32 0x3F000000#32),
    unary main_cst_1 main_v11 (broadcastInDim S16x64x128x128 ![] bcast_S_S16x64x128x128 : (⟨S_, .f32⟩ : BufTy).Contents (Elt F) → (⟨S16x64x128x128, .f32⟩ : BufTy).Contents (Elt F)),
    binary main_v11 main_v10 main_v12 (mulf : (⟨S16x64x128x128, .f32⟩ : BufTy).Contents (Elt F) → (⟨S16x64x128x128, .f32⟩ : BufTy).Contents (Elt F) → (⟨S16x64x128x128, .f32⟩ : BufTy).Contents (Elt F)) ]
/-- Operations 17 to 24: d, and the even-row array (a and b interleaved along the lanes). -/
abbrev ops3 : List (HloOp τ sig (Elt F)) :=
  [ binary main_v1 main_v3 main_v13 (subf : (⟨S16x64x128x128, .f32⟩ : BufTy).Contents (Elt F) → (⟨S16x64x128x128, .f32⟩ : BufTy).Contents (Elt F) → (⟨S16x64x128x128, .f32⟩ : BufTy).Contents (Elt F)),
    nullary main_cst_2 (constant S_ .f32 0x3F000000#32),
    unary main_cst_2 main_v14 (broadcastInDim S16x64x128x128 ![] bcast_S_S16x64x128x128 : (⟨S_, .f32⟩ : BufTy).Contents (Elt F) → (⟨S16x64x128x128, .f32⟩ : BufTy).Contents (Elt F)),
    binary main_v14 main_v13 main_v15 (mulf : (⟨S16x64x128x128, .f32⟩ : BufTy).Contents (Elt F) → (⟨S16x64x128x128, .f32⟩ : BufTy).Contents (Elt F) → (⟨S16x64x128x128, .f32⟩ : BufTy).Contents (Elt F)),
    unary main_v6 main_v16 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v9 main_v17 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v16 main_v17 main_v18 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v18 main_v19 rfl shapeCasts_S16x64x128x128x2_S16x64x128x256 ]
/-- Operations 25 to 32: the odd-row array (c and d interleaved), and the two row arrays interleaved along the rows. -/
abbrev ops4 : List (HloOp τ sig (Elt F)) :=
  [ unary main_v12 main_v20 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v15 main_v21 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v20 main_v21 main_v22 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v22 main_v23 rfl shapeCasts_S16x64x128x128x2_S16x64x128x256,
    unary main_v19 main_v24 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    unary main_v23 main_v25 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    binary main_v24 main_v25 main_v26 ((fun a b => concatenate S16x64x128x2x256 3 [⟨S16x64x128x1x256, a⟩, ⟨S16x64x128x1x256, b⟩] concatenates_S16x64x128x1x256_S16x64x128x1x256_S16x64x128x2x256_d3) : (⟨S16x64x128x1x256, .f32⟩ : BufTy).Contents (Elt F) → (⟨S16x64x128x1x256, .f32⟩ : BufTy).Contents (Elt F) → (⟨S16x64x128x2x256, .f32⟩ : BufTy).Contents (Elt F)),
    reshape main_v26 main_v27 rfl shapeCasts_S16x64x128x2x256_S16x64x256x256 ]

/-- @main's 32 operations, in order. -/
abbrev ops : List (HloOp τ sig (Elt F)) :=
  [ binary main_arg0 main_arg1 main_v0 (addf : (⟨S16x64x128x128, .f32⟩ : BufTy).Contents (Elt F) → (⟨S16x64x128x128, .f32⟩ : BufTy).Contents (Elt F) → (⟨S16x64x128x128, .f32⟩ : BufTy).Contents (Elt F)),
    binary main_arg0 main_arg1 main_v1 (subf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v2 (addf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v3 (subf : (⟨S16x64x128x128, .f32⟩ : BufTy).Contents (Elt F) → (⟨S16x64x128x128, .f32⟩ : BufTy).Contents (Elt F) → (⟨S16x64x128x128, .f32⟩ : BufTy).Contents (Elt F)),
    binary main_v0 main_v2 main_v4 (addf : (⟨S16x64x128x128, .f32⟩ : BufTy).Contents (Elt F) → (⟨S16x64x128x128, .f32⟩ : BufTy).Contents (Elt F) → (⟨S16x64x128x128, .f32⟩ : BufTy).Contents (Elt F)),
    nullary main_cst (constant S_ .f32 0x3F000000#32),
    unary main_cst main_v5 (broadcastInDim S16x64x128x128 ![] bcast_S_S16x64x128x128 : (⟨S_, .f32⟩ : BufTy).Contents (Elt F) → (⟨S16x64x128x128, .f32⟩ : BufTy).Contents (Elt F)),
    binary main_v5 main_v4 main_v6 (mulf : (⟨S16x64x128x128, .f32⟩ : BufTy).Contents (Elt F) → (⟨S16x64x128x128, .f32⟩ : BufTy).Contents (Elt F) → (⟨S16x64x128x128, .f32⟩ : BufTy).Contents (Elt F)),
    binary main_v0 main_v2 main_v7 (subf : (⟨S16x64x128x128, .f32⟩ : BufTy).Contents (Elt F) → (⟨S16x64x128x128, .f32⟩ : BufTy).Contents (Elt F) → (⟨S16x64x128x128, .f32⟩ : BufTy).Contents (Elt F)),
    nullary main_cst_0 (constant S_ .f32 0x3F000000#32),
    unary main_cst_0 main_v8 (broadcastInDim S16x64x128x128 ![] bcast_S_S16x64x128x128 : (⟨S_, .f32⟩ : BufTy).Contents (Elt F) → (⟨S16x64x128x128, .f32⟩ : BufTy).Contents (Elt F)),
    binary main_v8 main_v7 main_v9 (mulf : (⟨S16x64x128x128, .f32⟩ : BufTy).Contents (Elt F) → (⟨S16x64x128x128, .f32⟩ : BufTy).Contents (Elt F) → (⟨S16x64x128x128, .f32⟩ : BufTy).Contents (Elt F)),
    binary main_v1 main_v3 main_v10 (addf : (⟨S16x64x128x128, .f32⟩ : BufTy).Contents (Elt F) → (⟨S16x64x128x128, .f32⟩ : BufTy).Contents (Elt F) → (⟨S16x64x128x128, .f32⟩ : BufTy).Contents (Elt F)),
    nullary main_cst_1 (constant S_ .f32 0x3F000000#32),
    unary main_cst_1 main_v11 (broadcastInDim S16x64x128x128 ![] bcast_S_S16x64x128x128 : (⟨S_, .f32⟩ : BufTy).Contents (Elt F) → (⟨S16x64x128x128, .f32⟩ : BufTy).Contents (Elt F)),
    binary main_v11 main_v10 main_v12 (mulf : (⟨S16x64x128x128, .f32⟩ : BufTy).Contents (Elt F) → (⟨S16x64x128x128, .f32⟩ : BufTy).Contents (Elt F) → (⟨S16x64x128x128, .f32⟩ : BufTy).Contents (Elt F)),
    binary main_v1 main_v3 main_v13 (subf : (⟨S16x64x128x128, .f32⟩ : BufTy).Contents (Elt F) → (⟨S16x64x128x128, .f32⟩ : BufTy).Contents (Elt F) → (⟨S16x64x128x128, .f32⟩ : BufTy).Contents (Elt F)),
    nullary main_cst_2 (constant S_ .f32 0x3F000000#32),
    unary main_cst_2 main_v14 (broadcastInDim S16x64x128x128 ![] bcast_S_S16x64x128x128 : (⟨S_, .f32⟩ : BufTy).Contents (Elt F) → (⟨S16x64x128x128, .f32⟩ : BufTy).Contents (Elt F)),
    binary main_v14 main_v13 main_v15 (mulf : (⟨S16x64x128x128, .f32⟩ : BufTy).Contents (Elt F) → (⟨S16x64x128x128, .f32⟩ : BufTy).Contents (Elt F) → (⟨S16x64x128x128, .f32⟩ : BufTy).Contents (Elt F)),
    unary main_v6 main_v16 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v9 main_v17 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v16 main_v17 main_v18 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v18 main_v19 rfl shapeCasts_S16x64x128x128x2_S16x64x128x256,
    unary main_v12 main_v20 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v15 main_v21 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v20 main_v21 main_v22 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v22 main_v23 rfl shapeCasts_S16x64x128x128x2_S16x64x128x256,
    unary main_v19 main_v24 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    unary main_v23 main_v25 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    binary main_v24 main_v25 main_v26 ((fun a b => concatenate S16x64x128x2x256 3 [⟨S16x64x128x1x256, a⟩, ⟨S16x64x128x1x256, b⟩] concatenates_S16x64x128x1x256_S16x64x128x1x256_S16x64x128x2x256_d3) : (⟨S16x64x128x1x256, .f32⟩ : BufTy).Contents (Elt F) → (⟨S16x64x128x1x256, .f32⟩ : BufTy).Contents (Elt F) → (⟨S16x64x128x2x256, .f32⟩ : BufTy).Contents (Elt F)),
    reshape main_v26 main_v27 rfl shapeCasts_S16x64x128x2x256_S16x64x256x256 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., reshape_bufs_sub .., unary_bufs_sub .., unary_bufs_sub .., binary_bufs_sub .., reshape_bufs_sub ..⟩
theorem ops_fresh : (ops : List (HloOp τ sig (Elt F))).Forall fun op => op.fresh = ∅ := by
  simp only [List.Forall]; repeat' constructor

/-- Every weakly fair execution of the reference terminates with each buffer at the fold of the operations' results
    over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (hfresh := fun _ op hop => (List.forall_iff_forall_mem.mp ops_fresh) op hop)

/-! ## The stretches, each over an arbitrary valuation before it -/

/-- After operations 1 to 8: the four sums and differences and a, as stages of the arguments; the arguments as they were. -/
theorem stretch1 (W : Valuation τ sig (Elt F)) :
    after ops1 W (Proc.devRef .tc main_v0) = val_main_v0 (F := F) (W (Proc.devRef .tc main_arg0)) (W (Proc.devRef .tc main_arg1))
    ∧ after ops1 W (Proc.devRef .tc main_v1) = val_main_v1 (F := F) (W (Proc.devRef .tc main_arg0)) (W (Proc.devRef .tc main_arg1))
    ∧ after ops1 W (Proc.devRef .tc main_v2) = val_main_v2 (F := F) (W (Proc.devRef .tc main_arg2)) (W (Proc.devRef .tc main_arg3))
    ∧ after ops1 W (Proc.devRef .tc main_v3) = val_main_v3 (F := F) (W (Proc.devRef .tc main_arg2)) (W (Proc.devRef .tc main_arg3))
    ∧ after ops1 W (Proc.devRef .tc main_v6) = val_main_v6 (F := F) (W (Proc.devRef .tc main_arg0)) (W (Proc.devRef .tc main_arg1)) (W (Proc.devRef .tc main_arg2)) (W (Proc.devRef .tc main_arg3))
    ∧ after ops1 W (Proc.devRef .tc main_arg0) = W (Proc.devRef .tc main_arg0)
    ∧ after ops1 W (Proc.devRef .tc main_arg1) = W (Proc.devRef .tc main_arg1)
    ∧ after ops1 W (Proc.devRef .tc main_arg2) = W (Proc.devRef .tc main_arg2)
    ∧ after ops1 W (Proc.devRef .tc main_arg3) = W (Proc.devRef .tc main_arg3) :=
  ⟨by after_results <;> rfl, by after_results <;> rfl, by after_results <;> rfl, by after_results <;> rfl, by after_results <;> rfl,
   by after_results <;> rfl, by after_results <;> rfl, by after_results <;> rfl, by after_results <;> rfl⟩

/-- After operations 9 to 16, from a valuation holding the stages of stretch 1: b and c; a and the two differences kept. -/
theorem stretch2 (W : Valuation τ sig (Elt F)) (x0 x1 x2 x3 : (⟨S16x64x128x128, .f32⟩ : BufTy).Contents (Elt F))
    (h0 : W (Proc.devRef .tc main_v0) = val_main_v0 (F := F) x0 x1) (h1 : W (Proc.devRef .tc main_v1) = val_main_v1 (F := F) x0 x1)
    (h2 : W (Proc.devRef .tc main_v2) = val_main_v2 (F := F) x2 x3) (h3 : W (Proc.devRef .tc main_v3) = val_main_v3 (F := F) x2 x3)
    (h6 : W (Proc.devRef .tc main_v6) = val_main_v6 (F := F) x0 x1 x2 x3) (g0 : W (Proc.devRef .tc main_arg0) = x0) (g1 : W (Proc.devRef .tc main_arg1) = x1) (g2 : W (Proc.devRef .tc main_arg2) = x2) (g3 : W (Proc.devRef .tc main_arg3) = x3) :
    after ops2 W (Proc.devRef .tc main_v1) = val_main_v1 (F := F) x0 x1
    ∧ after ops2 W (Proc.devRef .tc main_v3) = val_main_v3 (F := F) x2 x3
    ∧ after ops2 W (Proc.devRef .tc main_v6) = val_main_v6 (F := F) x0 x1 x2 x3
    ∧ after ops2 W (Proc.devRef .tc main_v9) = val_main_v9 (F := F) x0 x1 x2 x3
    ∧ after ops2 W (Proc.devRef .tc main_v12) = val_main_v12 (F := F) x0 x1 x2 x3
    ∧ after ops2 W (Proc.devRef .tc main_arg0) = x0
    ∧ after ops2 W (Proc.devRef .tc main_arg1) = x1
    ∧ after ops2 W (Proc.devRef .tc main_arg2) = x2
    ∧ after ops2 W (Proc.devRef .tc main_arg3) = x3 :=
  ⟨by after_results; exact h1, by after_results; exact h3, by after_results; exact h6,
   by after_results; rw [h0, h2]; rfl, by after_results; rw [h1, h3]; rfl,
   by after_results; exact g0, by after_results; exact g1, by after_results; exact g2, by after_results; exact g3⟩

/-- After operations 17 to 24: d and the even-row array; c kept. -/
theorem stretch3 (W : Valuation τ sig (Elt F)) (x0 x1 x2 x3 : (⟨S16x64x128x128, .f32⟩ : BufTy).Contents (Elt F))
    (h1 : W (Proc.devRef .tc main_v1) = val_main_v1 (F := F) x0 x1) (h3 : W (Proc.devRef .tc main_v3) = val_main_v3 (F := F) x2 x3)
    (h6 : W (Proc.devRef .tc main_v6) = val_main_v6 (F := F) x0 x1 x2 x3) (h9 : W (Proc.devRef .tc main_v9) = val_main_v9 (F := F) x0 x1 x2 x3)
    (h12 : W (Proc.devRef .tc main_v12) = val_main_v12 (F := F) x0 x1 x2 x3) (g0 : W (Proc.devRef .tc main_arg0) = x0) (g1 : W (Proc.devRef .tc main_arg1) = x1) (g2 : W (Proc.devRef .tc main_arg2) = x2) (g3 : W (Proc.devRef .tc main_arg3) = x3) :
    after ops3 W (Proc.devRef .tc main_v12) = val_main_v12 (F := F) x0 x1 x2 x3
    ∧ after ops3 W (Proc.devRef .tc main_v15) = val_main_v15 (F := F) x0 x1 x2 x3
    ∧ after ops3 W (Proc.devRef .tc main_v19) = val_main_v19 (F := F) x0 x1 x2 x3
    ∧ after ops3 W (Proc.devRef .tc main_arg0) = x0
    ∧ after ops3 W (Proc.devRef .tc main_arg1) = x1
    ∧ after ops3 W (Proc.devRef .tc main_arg2) = x2
    ∧ after ops3 W (Proc.devRef .tc main_arg3) = x3 :=
  ⟨by after_results; exact h12, by after_results; rw [h1, h3]; rfl, by after_results; rw [h6, h9]; rfl,
   by after_results; exact g0, by after_results; exact g1, by after_results; exact g2, by after_results; exact g3⟩

/-- After operations 25 to 32: the image. -/
theorem stretch4 (W : Valuation τ sig (Elt F)) (x0 x1 x2 x3 : (⟨S16x64x128x128, .f32⟩ : BufTy).Contents (Elt F))
    (h12 : W (Proc.devRef .tc main_v12) = val_main_v12 (F := F) x0 x1 x2 x3) (h15 : W (Proc.devRef .tc main_v15) = val_main_v15 (F := F) x0 x1 x2 x3)
    (h19 : W (Proc.devRef .tc main_v19) = val_main_v19 (F := F) x0 x1 x2 x3) (g0 : W (Proc.devRef .tc main_arg0) = x0) (g1 : W (Proc.devRef .tc main_arg1) = x1) (g2 : W (Proc.devRef .tc main_arg2) = x2) (g3 : W (Proc.devRef .tc main_arg3) = x3) :
    after ops4 W (Proc.devRef .tc main_v27) = val_main_v27 (F := F) x0 x1 x2 x3
    ∧ after ops4 W (Proc.devRef .tc main_arg0) = x0
    ∧ after ops4 W (Proc.devRef .tc main_arg1) = x1
    ∧ after ops4 W (Proc.devRef .tc main_arg2) = x2
    ∧ after ops4 W (Proc.devRef .tc main_arg3) = x3 :=
  ⟨by after_results; rw [h12, h15, h19]; rfl,
   by after_results; exact g0, by after_results; exact g1, by after_results; exact g2, by after_results; exact g3⟩

/-! ## The four stretches composed -/

/-- After the whole program, from any valuation: the result buffer holds the last stage of the arguments, and the
    arguments are as they were. -/
theorem results (V : Valuation τ sig (Elt F)) :
    after ops V (Proc.devRef .tc main_v27) = val_main_v27 (F := F) (V (Proc.devRef .tc main_arg0)) (V (Proc.devRef .tc main_arg1)) (V (Proc.devRef .tc main_arg2)) (V (Proc.devRef .tc main_arg3))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  obtain ⟨a0, a1, a2, a3, a6, p0, p1, p2, p3⟩ := stretch1 V
  obtain ⟨b1, b3, b6, b9, b12, q0, q1, q2, q3⟩ := stretch2 (after ops1 V) _ _ _ _ a0 a1 a2 a3 a6 p0 p1 p2 p3
  obtain ⟨c12, c15, c19, r0, r1, r2, r3⟩ := stretch3 (after ops2 (after ops1 V)) _ _ _ _ b1 b3 b6 b9 b12 q0 q1 q2 q3
  exact stretch4 (after ops3 (after ops2 (after ops1 V))) _ _ _ _ c12 c15 c19 r0 r1 r2 r3

/-! ## The run, read -/

/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = val_main_v27 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v27).trans (results (launchContents m c)).1,
       (h c main_arg0).trans (results (launchContents m c)).2.1,
       (h c main_arg1).trans (results (launchContents m c)).2.2.1,
       (h c main_arg2).trans (results (launchContents m c)).2.2.2.1,
       (h c main_arg3).trans (results (launchContents m c)).2.2.2.2⟩)
    (run_raw m ρ)

end Cert.ReferenceIdeal.StageRun

end
-- ==== Proof.RefValue.lean ====
/-
  The reference's result is the inverse Haar step, entry by entry.

  The reference computes the four combinations a, b, c, d as whole [16, 64, 128, 128] arrays, interleaves a with b and
  c with d along the last axis (a trailing unit axis, a join on it, a flattening of the last two axes: lane X is the
  first array at X / 2 for even X, the second for odd X), and then interleaves the two row arrays along the rows in
  the same way (a unit axis before the last, a join on it, a flattening of the two row axes: row R is the first array
  at R / 2 for even R, the second for odd R). Read at image entry (b, c, R, X) this is the combination the parities
  (R % 2, X % 2) name, of the coefficients at (b, c, R / 2, X / 2).
-/
import proofs.«415108_j11802570129597_4_alg».proof.Proof.RefRead
import proofs.«415108_j11802570129597_4_alg».proof.Proof.Butterfly

noncomputable section

namespace Cert.ReferenceIdeal.HaarValue

open Cert.ReferenceIdeal Cert.ReferenceIdeal.Gen Cert.ReferenceIdeal.ReadP Cert.Haar Idealize.ShloMosaic

variable (x0 x1 x2 x3 : (⟨S16x64x128x128, .f32⟩ : BufTy).Contents (Elt Ideal))

/-- The row-array entry under image entry (b, c, R, X): (b, c, R / 2, X). -/
def rowOf (i : S16x64x256x256.Idx) : S16x64x128x256.Idx := fun a => match a with
  | ⟨0, _⟩ => ⟨(i 0).val, (i 0).isLt⟩
  | ⟨1, _⟩ => ⟨(i 1).val, (i 1).isLt⟩
  | ⟨2, _⟩ => ⟨(i 2).val / 2, by have h : (i 2).val < 256 := (i 2).isLt; show (i 2).val / 2 < 128; omega⟩
  | ⟨3, _⟩ => ⟨(i 3).val, (i 3).isLt⟩

/-- The coefficient entry under row-array entry (b, c, h, X): (b, c, h, X / 2). -/
def laneOf (j : S16x64x128x256.Idx) : S16x64x128x128.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val / 2, by have h : (j 3).val < 256 := (j 3).isLt; show (j 3).val / 2 < 128; omega⟩

/-! ## The four combinations, at an index -/

theorem comb_a (s : S16x64x128x128.Idx) :
    val_main_v6 (F := Ideal) x0 x1 x2 x3 s = half * ((x0 s + x1 s) + (x2 s + x3 s)) := by
  rw [val_main_v6_apply, val_main_v5_apply]; rfl
theorem comb_b (s : S16x64x128x128.Idx) :
    val_main_v9 (F := Ideal) x0 x1 x2 x3 s = half * ((x0 s + x1 s) - (x2 s + x3 s)) := by
  rw [val_main_v9_apply, val_main_v8_apply]; rfl
theorem comb_c (s : S16x64x128x128.Idx) :
    val_main_v12 (F := Ideal) x0 x1 x2 x3 s = half * ((x0 s - x1 s) + (x2 s - x3 s)) := by
  rw [val_main_v12_apply, val_main_v11_apply]; rfl
theorem comb_d (s : S16x64x128x128.Idx) :
    val_main_v15 (F := Ideal) x0 x1 x2 x3 s = half * ((x0 s - x1 s) - (x2 s - x3 s)) := by
  rw [val_main_v15_apply, val_main_v14_apply]; rfl

/-! ## The lane interleave: a row array at (b, c, h, X) -/

/-- The even-row array: a at even lanes, b at odd lanes. -/
theorem evenRows_apply (j : S16x64x128x256.Idx) :
    val_main_v19 (F := Ideal) x0 x1 x2 x3 j
      = if (j 3).val % 2 = 0 then val_main_v6 (F := Ideal) x0 x1 x2 x3 (laneOf j) else val_main_v9 (F := Ideal) x0 x1 x2 x3 (laneOf j) := by
  have h0 : (j 0).val < 16 := (j 0).isLt
  have h1 : (j 1).val < 64 := (j 1).isLt
  have h2 : (j 2).val < 128 := (j 2).isLt
  have h3 : (j 3).val < 256 := (j 3).isLt
  rw [val_main_v19_apply]
  unfold val_main_v18
  by_cases hq : (j 3).val % 2 = 0
  · rw [if_pos hq]
    refine (concatenate_pair_apply_left 4 _ _ concatenates_S16x64x128x128x1_S16x64x128x128x1_S16x64x128x128x2_d4 (idx_main_v19 j) rfl
      (fun a => match a with
        | ⟨0, _⟩ => ⟨(j 0).val, h0⟩ | ⟨1, _⟩ => ⟨(j 1).val, h1⟩ | ⟨2, _⟩ => ⟨(j 2).val, h2⟩
        | ⟨3, _⟩ => ⟨(j 3).val / 2, by show (j 3).val / 2 < 128; omega⟩
        | ⟨4, _⟩ => ⟨0, Nat.one_pos⟩ : S16x64x128x128x1.Idx)
      (fun b => match b with
        | ⟨0, _⟩ => by show (j 0).val = ((((j 0).val * 64 + (j 1).val) * 128 + (j 2).val) * 256 + (j 3).val) / 2097152; omega
        | ⟨1, _⟩ => by show (j 1).val = ((((j 0).val * 64 + (j 1).val) * 128 + (j 2).val) * 256 + (j 3).val) / 32768 % 64; omega
        | ⟨2, _⟩ => by show (j 2).val = ((((j 0).val * 64 + (j 1).val) * 128 + (j 2).val) * 256 + (j 3).val) / 256 % 128; omega
        | ⟨3, _⟩ => by show (j 3).val / 2 = ((((j 0).val * 64 + (j 1).val) * 128 + (j 2).val) * 256 + (j 3).val) / 2 % 128; omega
        | ⟨4, _⟩ => by show 0 = ((((j 0).val * 64 + (j 1).val) * 128 + (j 2).val) * 256 + (j 3).val) % 2; omega)).trans ?_
    rw [val_main_v16_apply]
    exact congrArg _ (funext fun a => match a with | ⟨0, _⟩ => rfl | ⟨1, _⟩ => rfl | ⟨2, _⟩ => rfl | ⟨3, _⟩ => rfl)
  · rw [if_neg hq]
    refine (concatenate_pair_apply_right 4 _ _ concatenates_S16x64x128x128x1_S16x64x128x128x1_S16x64x128x128x2_d4 (idx_main_v19 j) rfl rfl
      (fun a => match a with
        | ⟨0, _⟩ => ⟨(j 0).val, h0⟩ | ⟨1, _⟩ => ⟨(j 1).val, h1⟩ | ⟨2, _⟩ => ⟨(j 2).val, h2⟩
        | ⟨3, _⟩ => ⟨(j 3).val / 2, by show (j 3).val / 2 < 128; omega⟩
        | ⟨4, _⟩ => ⟨0, Nat.one_pos⟩ : S16x64x128x128x1.Idx)
      (fun b hb => match b with
        | ⟨0, _⟩ => by show (j 0).val = ((((j 0).val * 64 + (j 1).val) * 128 + (j 2).val) * 256 + (j 3).val) / 2097152; omega
        | ⟨1, _⟩ => by show (j 1).val = ((((j 0).val * 64 + (j 1).val) * 128 + (j 2).val) * 256 + (j 3).val) / 32768 % 64; omega
        | ⟨2, _⟩ => by show (j 2).val = ((((j 0).val * 64 + (j 1).val) * 128 + (j 2).val) * 256 + (j 3).val) / 256 % 128; omega
        | ⟨3, _⟩ => by show (j 3).val / 2 = ((((j 0).val * 64 + (j 1).val) * 128 + (j 2).val) * 256 + (j 3).val) / 2 % 128; omega
        | ⟨4, _⟩ => absurd rfl hb)
      (by show 0 + 1 = ((((j 0).val * 64 + (j 1).val) * 128 + (j 2).val) * 256 + (j 3).val) % 2; omega)).trans ?_
    rw [val_main_v17_apply]
    exact congrArg _ (funext fun a => match a with | ⟨0, _⟩ => rfl | ⟨1, _⟩ => rfl | ⟨2, _⟩ => rfl | ⟨3, _⟩ => rfl)

/-- The odd-row array: c at even lanes, d at odd lanes. -/
theorem oddRows_apply (j : S16x64x128x256.Idx) :
    val_main_v23 (F := Ideal) x0 x1 x2 x3 j
      = if (j 3).val % 2 = 0 then val_main_v12 (F := Ideal) x0 x1 x2 x3 (laneOf j) else val_main_v15 (F := Ideal) x0 x1 x2 x3 (laneOf j) := by
  have h0 : (j 0).val < 16 := (j 0).isLt
  have h1 : (j 1).val < 64 := (j 1).isLt
  have h2 : (j 2).val < 128 := (j 2).isLt
  have h3 : (j 3).val < 256 := (j 3).isLt
  rw [val_main_v23_apply]
  unfold val_main_v22
  by_cases hq : (j 3).val % 2 = 0
  · rw [if_pos hq]
    refine (concatenate_pair_apply_left 4 _ _ concatenates_S16x64x128x128x1_S16x64x128x128x1_S16x64x128x128x2_d4 (idx_main_v23 j) rfl
      (fun a => match a with
        | ⟨0, _⟩ => ⟨(j 0).val, h0⟩ | ⟨1, _⟩ => ⟨(j 1).val, h1⟩ | ⟨2, _⟩ => ⟨(j 2).val, h2⟩
        | ⟨3, _⟩ => ⟨(j 3).val / 2, by show (j 3).val / 2 < 128; omega⟩
        | ⟨4, _⟩ => ⟨0, Nat.one_pos⟩ : S16x64x128x128x1.Idx)
      (fun b => match b with
        | ⟨0, _⟩ => by show (j 0).val = ((((j 0).val * 64 + (j 1).val) * 128 + (j 2).val) * 256 + (j 3).val) / 2097152; omega
        | ⟨1, _⟩ => by show (j 1).val = ((((j 0).val * 64 + (j 1).val) * 128 + (j 2).val) * 256 + (j 3).val) / 32768 % 64; omega
        | ⟨2, _⟩ => by show (j 2).val = ((((j 0).val * 64 + (j 1).val) * 128 + (j 2).val) * 256 + (j 3).val) / 256 % 128; omega
        | ⟨3, _⟩ => by show (j 3).val / 2 = ((((j 0).val * 64 + (j 1).val) * 128 + (j 2).val) * 256 + (j 3).val) / 2 % 128; omega
        | ⟨4, _⟩ => by show 0 = ((((j 0).val * 64 + (j 1).val) * 128 + (j 2).val) * 256 + (j 3).val) % 2; omega)).trans ?_
    rw [val_main_v20_apply]
    exact congrArg _ (funext fun a => match a with | ⟨0, _⟩ => rfl | ⟨1, _⟩ => rfl | ⟨2, _⟩ => rfl | ⟨3, _⟩ => rfl)
  · rw [if_neg hq]
    refine (concatenate_pair_apply_right 4 _ _ concatenates_S16x64x128x128x1_S16x64x128x128x1_S16x64x128x128x2_d4 (idx_main_v23 j) rfl rfl
      (fun a => match a with
        | ⟨0, _⟩ => ⟨(j 0).val, h0⟩ | ⟨1, _⟩ => ⟨(j 1).val, h1⟩ | ⟨2, _⟩ => ⟨(j 2).val, h2⟩
        | ⟨3, _⟩ => ⟨(j 3).val / 2, by show (j 3).val / 2 < 128; omega⟩
        | ⟨4, _⟩ => ⟨0, Nat.one_pos⟩ : S16x64x128x128x1.Idx)
      (fun b hb => match b with
        | ⟨0, _⟩ => by show (j 0).val = ((((j 0).val * 64 + (j 1).val) * 128 + (j 2).val) * 256 + (j 3).val) / 2097152; omega
        | ⟨1, _⟩ => by show (j 1).val = ((((j 0).val * 64 + (j 1).val) * 128 + (j 2).val) * 256 + (j 3).val) / 32768 % 64; omega
        | ⟨2, _⟩ => by show (j 2).val = ((((j 0).val * 64 + (j 1).val) * 128 + (j 2).val) * 256 + (j 3).val) / 256 % 128; omega
        | ⟨3, _⟩ => by show (j 3).val / 2 = ((((j 0).val * 64 + (j 1).val) * 128 + (j 2).val) * 256 + (j 3).val) / 2 % 128; omega
        | ⟨4, _⟩ => absurd rfl hb)
      (by show 0 + 1 = ((((j 0).val * 64 + (j 1).val) * 128 + (j 2).val) * 256 + (j 3).val) % 2; omega)).trans ?_
    rw [val_main_v21_apply]
    exact congrArg _ (funext fun a => match a with | ⟨0, _⟩ => rfl | ⟨1, _⟩ => rfl | ⟨2, _⟩ => rfl | ⟨3, _⟩ => rfl)

/-! ## The row interleave: the image at (b, c, R, X) -/

/-- The image: the even-row array at even rows, the odd-row array at odd rows, each at row R / 2. -/
theorem image_apply (i : S16x64x256x256.Idx) :
    val_main_v27 (F := Ideal) x0 x1 x2 x3 i
      = if (i 2).val % 2 = 0 then val_main_v19 (F := Ideal) x0 x1 x2 x3 (rowOf i) else val_main_v23 (F := Ideal) x0 x1 x2 x3 (rowOf i) := by
  have h0 : (i 0).val < 16 := (i 0).isLt
  have h1 : (i 1).val < 64 := (i 1).isLt
  have h2 : (i 2).val < 256 := (i 2).isLt
  have h3 : (i 3).val < 256 := (i 3).isLt
  rw [val_main_v27_apply]
  unfold val_main_v26
  by_cases hr : (i 2).val % 2 = 0
  · rw [if_pos hr]
    refine (concatenate_pair_apply_left 3 _ _ concatenates_S16x64x128x1x256_S16x64x128x1x256_S16x64x128x2x256_d3 (idx_main_v27 i) rfl
      (fun a => match a with
        | ⟨0, _⟩ => ⟨(i 0).val, h0⟩ | ⟨1, _⟩ => ⟨(i 1).val, h1⟩
        | ⟨2, _⟩ => ⟨(i 2).val / 2, by show (i 2).val / 2 < 128; omega⟩
        | ⟨3, _⟩ => ⟨0, Nat.one_pos⟩
        | ⟨4, _⟩ => ⟨(i 3).val, h3⟩ : S16x64x128x1x256.Idx)
      (fun b => match b with
        | ⟨0, _⟩ => by show (i 0).val = ((((i 0).val * 64 + (i 1).val) * 256 + (i 2).val) * 256 + (i 3).val) / 4194304; omega
        | ⟨1, _⟩ => by show (i 1).val = ((((i 0).val * 64 + (i 1).val) * 256 + (i 2).val) * 256 + (i 3).val) / 65536 % 64; omega
        | ⟨2, _⟩ => by show (i 2).val / 2 = ((((i 0).val * 64 + (i 1).val) * 256 + (i 2).val) * 256 + (i 3).val) / 512 % 128; omega
        | ⟨3, _⟩ => by show 0 = ((((i 0).val * 64 + (i 1).val) * 256 + (i 2).val) * 256 + (i 3).val) / 256 % 2; omega
        | ⟨4, _⟩ => by show (i 3).val = ((((i 0).val * 64 + (i 1).val) * 256 + (i 2).val) * 256 + (i 3).val) % 256; omega)).trans ?_
    rw [val_main_v24_apply]
    exact congrArg _ (funext fun a => match a with | ⟨0, _⟩ => rfl | ⟨1, _⟩ => rfl | ⟨2, _⟩ => rfl | ⟨3, _⟩ => rfl)
  · rw [if_neg hr]
    refine (concatenate_pair_apply_right 3 _ _ concatenates_S16x64x128x1x256_S16x64x128x1x256_S16x64x128x2x256_d3 (idx_main_v27 i) rfl rfl
      (fun a => match a with
        | ⟨0, _⟩ => ⟨(i 0).val, h0⟩ | ⟨1, _⟩ => ⟨(i 1).val, h1⟩
        | ⟨2, _⟩ => ⟨(i 2).val / 2, by show (i 2).val / 2 < 128; omega⟩
        | ⟨3, _⟩ => ⟨0, Nat.one_pos⟩
        | ⟨4, _⟩ => ⟨(i 3).val, h3⟩ : S16x64x128x1x256.Idx)
      (fun b hb => match b with
        | ⟨0, _⟩ => by show (i 0).val = ((((i 0).val * 64 + (i 1).val) * 256 + (i 2).val) * 256 + (i 3).val) / 4194304; omega
        | ⟨1, _⟩ => by show (i 1).val = ((((i 0).val * 64 + (i 1).val) * 256 + (i 2).val) * 256 + (i 3).val) / 65536 % 64; omega
        | ⟨2, _⟩ => by show (i 2).val / 2 = ((((i 0).val * 64 + (i 1).val) * 256 + (i 2).val) * 256 + (i 3).val) / 512 % 128; omega
        | ⟨3, _⟩ => absurd rfl hb
        | ⟨4, _⟩ => by show (i 3).val = ((((i 0).val * 64 + (i 1).val) * 256 + (i 2).val) * 256 + (i 3).val) % 256; omega)
      (by show 0 + 1 = ((((i 0).val * 64 + (i 1).val) * 256 + (i 2).val) * 256 + (i 3).val) / 256 % 2; omega)).trans ?_
    rw [val_main_v25_apply]
    exact congrArg _ (funext fun a => match a with | ⟨0, _⟩ => rfl | ⟨1, _⟩ => rfl | ⟨2, _⟩ => rfl | ⟨3, _⟩ => rfl)

/-! ## The reference is the specification -/

/-- The reference's result array is the inverse Haar step of its four arguments. -/
theorem reference_eq : val_main_v27 (F := Ideal) x0 x1 x2 x3 = inverseHaar x0 x1 x2 x3 := by
  funext i
  have hs : laneOf (rowOf i) = coefOf i :=
    funext fun a => match a with | ⟨0, _⟩ => rfl | ⟨1, _⟩ => rfl | ⟨2, _⟩ => rfl | ⟨3, _⟩ => rfl
  rw [image_apply]
  unfold inverseHaar
  by_cases hr : (i 2).val % 2 = 0
  · rw [if_pos hr, evenRows_apply]
    by_cases hq : (i 3).val % 2 = 0
    · rw [if_pos (show ((rowOf i) 3).val % 2 = 0 from hq), hs, comb_a, quad_even_even hr hq]
    · rw [if_neg (show ¬((rowOf i) 3).val % 2 = 0 from hq), hs, comb_b, quad_even_odd hr hq]
  · rw [if_neg hr, oddRows_apply]
    by_cases hq : (i 3).val % 2 = 0
    · rw [if_pos (show ((rowOf i) 3).val % 2 = 0 from hq), hs, comb_c, quad_odd_even hr hq]
    · rw [if_neg (show ¬((rowOf i) 3).val % 2 = 0 from hq), hs, comb_d, quad_odd_odd hr hq]

end Cert.ReferenceIdeal.HaarValue

end
-- ==== Proof.lean ====
/-
  The certificate of the inverse 2-D Haar step: the kernel against its reference, over the extended reals.

  Both programs take four sub-band arrays LL, LH, HL, HH of shape [16, 64, 128, 128] and return the image
  [16, 64, 256, 256] whose 2×2 block at rows 2h, 2h+1 and columns 2w, 2w+1 is
      [ ½((LL+LH)+(HL+HH))   ½((LL+LH)−(HL+HH)) ]
      [ ½((LL−LH)+(HL−HH))   ½((LL−LH)−(HL−HH)) ]
  of the coefficients at (h, w). They form the four combinations with the same operations in the same grouping and
  the same word for one half; they differ only in how the four combinations are laid into the image. The kernel
  works image by image over batch and channel flattened, interleaves along the lanes inside its body, keeps the row
  parity as an axis of its output block, and merges the row axes by a reshape after the region; the reference
  interleaves whole arrays, first along the lanes and then along the rows. Read at an image entry (b, c, R, X), each
  is the combination named by the parities (R % 2, X % 2) of the coefficients at (b, c, R / 2, X / 2)
  (Proof/Butterfly.lean: the specification; Proof/ArrayValue.lean: the kernel's run ends there; Proof/RefRun.lean and
  Proof/RefValue.lean: the reference's run ends there). No law of the extended reals is used and the precondition is
  never opened: the two results are the same expression of the same entries.

  The word-level kernel and its idealization are the same text (the ideal pass rewrote nothing), so the idealization
  claim has no conjunct. The frames of the two kernel programs are their frame runs; the reference's frame is its
  run with the result dropped.
-/
import proofs.«415108_j11802570129597_4_alg».proof.Defs
import proofs.«415108_j11802570129597_4_alg».proof.Proof.Gen.Kernel
import proofs.«415108_j11802570129597_4_alg».proof.Proof.Gen.Kernel.Skeleton
import proofs.«415108_j11802570129597_4_alg».proof.Proof.Gen.Kernel.Launch
import proofs.«415108_j11802570129597_4_alg».proof.Proof.Gen.Kernel.Points
import proofs.«415108_j11802570129597_4_alg».proof.Proof.Gen.Kernel.Frame
import proofs.«415108_j11802570129597_4_alg».proof.Proof.Gen.KernelIdeal
import proofs.«415108_j11802570129597_4_alg».proof.Proof.Gen.KernelIdeal.Skeleton
import proofs.«415108_j11802570129597_4_alg».proof.Proof.Gen.KernelIdeal.Launch
import proofs.«415108_j11802570129597_4_alg».proof.Proof.Gen.KernelIdeal.Points
import proofs.«415108_j11802570129597_4_alg».proof.Proof.Gen.KernelIdeal.Frame
import proofs.«415108_j11802570129597_4_alg».proof.Proof.Gen.ReferenceIdeal
import proofs.«415108_j11802570129597_4_alg».proof.Proof.Gen.Pre_finite_inputs
import proofs.«415108_j11802570129597_4_alg».proof.Proof.ArrayValue
import proofs.«415108_j11802570129597_4_alg».proof.Proof.RefRun
import proofs.«415108_j11802570129597_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: its frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.StageRun.run (F := Ideal) m ρ)

/-- From memories agreeing on the four arguments both programs end at the inverse Haar step of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.StageRun.run (F := Ideal) m' ρ')
  rw [Cert.ReferenceIdeal.HaarValue.reference_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
